-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg6
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x64 .f32) (main_arg1 : FVec F S100000x1 .f32) (main_arg2 : IVec S1600000 32) (main_arg3 : IVec S1600000 32) (main_arg4 : FVec F S64x64 .f32) (main_arg5 : FVec F S64 .f32) (main_arg6 : FVec F S64x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S10000x64 : Shape := ⟨2, ![10000, 64]⟩
abbrev S10000x1 : Shape := ⟨2, ![10000, 1]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 40
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x40, .f32⟩
  | .hbm, ⟨39, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | .local _ .vmem, ⟨24, _⟩ => ⟨S64x40, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x40.size a ≤ S64x40.size a
  hwx3_2 : ∀ i : grid3.Coords, EltTy.bits .f32 = 32 ∨ (Rect.block (s := S64x40) S64x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x40.size a ≤ S100000x40.size a
  hwx3_4 : ∀ i : grid3.Coords, EltTy.bits .f32 = 32 ∨ (Rect.block (s := S100000x40) S10000x40.size (cc3_transform_4 i) (hinb3_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S10000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x40, .f32⟩
  | .hbm, ⟨50, _⟩ => ⟨S1x40, .f32⟩
  | .hbm, ⟨51, _⟩ => ⟨S100000x40, .f32⟩
  | .hbm, ⟨52, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  Two graph-convolution layers over 100000 nodes, as functions of whole arrays on the extended reals.

  One layer takes node features h : [100000, d], a per-node weight n : [100000, 1], a matrix W : [64, d'] and a
  bias row b : [1, d'], and an aggregation A of feature arrays (the sum over incoming edges, the same map in both
  programs, kept abstract here):
      h₁ = rows of h scaled by n           (scaleRows)
      h₂ = A h₁
      h₃ = (rows of h₂ scaled by n) · W + b (affine64 / affine40; the scaling is inside the contraction's left factor)
  and the first layer ends with max(·, 0) (relu64).  Everything is stated index by index: entry (r, q) of the
  affine map is  Σ_k (h (r, k) · n (r, 0)) · W (k, q) + b (0, q).
-/
import Idealize.ShloMosaic.PureOps.Ideal
import Idealize.ShloMosaic.Lib.ValueIdx

noncomputable section

open scoped BigOperators

namespace Cert.Gcn

open Idealize.ShloMosaic Idealize.ShloMosaic.ValueIdx

/-- node features, 64 wide -/
abbrev Nodes64 : Shape := ⟨2, ![100000, 64]⟩
/-- node features, 40 wide -/
abbrev Nodes40 : Shape := ⟨2, ![100000, 40]⟩
/-- one weight per node, kept as a column -/
abbrev Nodes1 : Shape := ⟨2, ![100000, 1]⟩
abbrev Mat64 : Shape := ⟨2, ![64, 64]⟩
abbrev Mat40 : Shape := ⟨2, ![64, 40]⟩
/-- a bias, kept as a row -/
abbrev Row64 : Shape := ⟨2, ![1, 64]⟩
abbrev Row40 : Shape := ⟨2, ![1, 40]⟩
abbrev Vec64 : Shape := ⟨1, ![64]⟩
abbrev Vec40 : Shape := ⟨1, ![40]⟩

/-- Row r of h times the weight of node r. -/
def scaleRows (h : FVec Ideal Nodes64 .f32) (n : FVec Ideal Nodes1 .f32) : FVec Ideal Nodes64 .f32 :=
  fun i => h i * n (ix2 (i 0) (0 : Fin 1))

theorem scaleRows_apply (h : FVec Ideal Nodes64 .f32) (n : FVec Ideal Nodes1 .f32) (r : Fin 100000) (q : Fin 64) :
    scaleRows h n (ix2 r q) = h (ix2 r q) * n (ix2 r (0 : Fin 1)) := rfl

/-- Entry (r, q) of (rows of h scaled by n) · W + b, 64 columns. -/
def affine64 (h : FVec Ideal Nodes64 .f32) (n : FVec Ideal Nodes1 .f32) (W : FVec Ideal Mat64 .f32)
    (b : FVec Ideal Row64 .f32) : FVec Ideal Nodes64 .f32 :=
  fun i => (∑ k : Fin 64, (h (ix2 (i 0) k) * n (ix2 (i 0) (0 : Fin 1))) * W (ix2 k (i 1))) + b (ix2 (0 : Fin 1) (i 1))

theorem affine64_apply (h : FVec Ideal Nodes64 .f32) (n : FVec Ideal Nodes1 .f32) (W : FVec Ideal Mat64 .f32)
    (b : FVec Ideal Row64 .f32) (r : Fin 100000) (q : Fin 64) :
    affine64 h n W b (ix2 r q)
      = (∑ k : Fin 64, (h (ix2 r k) * n (ix2 r (0 : Fin 1))) * W (ix2 k q)) + b (ix2 (0 : Fin 1) q) := rfl

/-- Entry (r, q) of (rows of h scaled by n) · W + b, 40 columns. -/
def affine40 (h : FVec Ideal Nodes64 .f32) (n : FVec Ideal Nodes1 .f32) (W : FVec Ideal Mat40 .f32)
    (b : FVec Ideal Row40 .f32) : FVec Ideal Nodes40 .f32 :=
  fun i => (∑ k : Fin 64, (h (ix2 (i 0) k) * n (ix2 (i 0) (0 : Fin 1))) * W (ix2 k (i 1))) + b (ix2 (0 : Fin 1) (i 1))

theorem affine40_apply (h : FVec Ideal Nodes64 .f32) (n : FVec Ideal Nodes1 .f32) (W : FVec Ideal Mat40 .f32)
    (b : FVec Ideal Row40 .f32) (r : Fin 100000) (q : Fin 40) :
    affine40 h n W b (ix2 r q)
      = (∑ k : Fin 64, (h (ix2 r k) * n (ix2 r (0 : Fin 1))) * W (ix2 k q)) + b (ix2 (0 : Fin 1) q) := rfl

/-- max(x, 0), entry by entry; the zero is the word 0x00000000 read as a float. -/
def relu64 (x : FVec Ideal Nodes64 .f32) : FVec Ideal Nodes64 .f32 :=
  fun i => max (x i) (Ideal.ofBits .f32 0x00000000#32)

theorem relu64_apply (x : FVec Ideal Nodes64 .f32) (i : Nodes64.Idx) :
    relu64 x i = max (x i) (Ideal.ofBits .f32 0x00000000#32) := rfl

/-- A bias vector laid out as a one-row matrix. -/
def asRow64 (b : FVec Ideal Vec64 .f32) : FVec Ideal Row64 .f32 := fun i => b (ix1 (i 1))
def asRow40 (b : FVec Ideal Vec40 .f32) : FVec Ideal Row40 .f32 := fun i => b (ix1 (i 1))

/-- Both layers: scale, aggregate, affine + relu; scale, aggregate, affine. -/
def twoLayers (A : FVec Ideal Nodes64 .f32 → FVec Ideal Nodes64 .f32)
    (x : FVec Ideal Nodes64 .f32) (n : FVec Ideal Nodes1 .f32)
    (W1 : FVec Ideal Mat64 .f32) (b1 : FVec Ideal Row64 .f32)
    (W2 : FVec Ideal Mat40 .f32) (b2 : FVec Ideal Row40 .f32) : FVec Ideal Nodes40 .f32 :=
  affine40 (A (scaleRows (relu64 (affine64 (A (scaleRows x n)) n W1 b1)) n)) n W2 b2

end Cert.Gcn

end
-- ==== Proof.Region0.lean ====
/-
  The first scaling call: ten blocks of 10000 rows; block t of the result is block t of the
  features, each row times its node's weight.  So the array it leaves is scaleRows of the two arrays it was entered with.
-/
import proofs.«134118_j19679540150348_1_alg».proof.Proof.Gen.KernelIdeal.Frame
import proofs.«134118_j19679540150348_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- A column of 10000 weights broadcast along 64 columns reads, at (p, q), the weight of row p. -/
theorem column_broadcast (x1 : Vec Ideal S10000x1 .f32) (p : Fin 10000) (q : Fin 64) :
    broadcastTo S10000x64 x1 broadcasts_S10000x1_S10000x64 (ix2 p q) = x1 (ix2 p (0 : Fin 1)) := by
  refine broadcastTo_apply x1 _ (ix2 p q) (ix2 p (0 : Fin 1)) fun ax => ?_
  match ax with
  | ⟨0, _⟩ => show p.val = if (10000 : Nat) = 1 then 0 else p.val; rw [if_neg (by decide)]
  | ⟨1, _⟩ => show (0 : Nat) = if (1 : Nat) = 1 then 0 else q.val; rw [if_pos rfl]

/-- The body's one stored value at (p, q): the feature times the row's weight. -/
theorem payload_apply (x0 : Vec Ideal S10000x64 .f32) (x1 : Vec Ideal S10000x1 .f32) (p : Fin 10000) (q : Fin 64) :
    k0_pay1 x0 x1 (ix2 p q) = x0 (ix2 p q) * x1 (ix2 p (0 : Fin 1)) := by
  unfold k0_pay1
  show x0 (ix2 p q) * broadcastTo S10000x64 x1 broadcasts_S10000x1_S10000x64 (ix2 p q) = _
  rw [column_broadcast]

/-- Block t of every window starts at row 10000 · t and column 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of block t is row 10000 · t + p of the array. -/
def rowOf (t : Fin cfg0.N) (p : Fin 10000) : Fin 100000 :=
  ⟨t.val * 10000 + p.val, by have h : t.val < 10 := Nat.lt_of_lt_of_eq t.isLt N_0
                             have := p.isLt; omega⟩

theorem emb_features (t : Fin cfg0.N) (p : Fin 10000) (q : Fin 64) :
    ((cfg0.win 0).blk t).view.emb (ix2 p q) = ix2 (rowOf t p) q := by
  obtain ⟨e0, e1, -, -, -, -⟩ := block_indices t
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * q.val = q.val; rw [e1]; omega

theorem emb_weights (t : Fin cfg0.N) (p : Fin 10000) :
    ((cfg0.win 1).blk t).view.emb (ix2 p (0 : Fin 1)) = ix2 (rowOf t p) (0 : Fin 1) := by
  obtain ⟨-, -, e2, e3, -, -⟩ := block_indices t
  funext a; apply Fin.ext
  match a with
  | ⟨0, _⟩ => show win0_1.index t (0 : Fin 2) * 10000 + 1 * p.val = t.val * 10000 + p.val; rw [e2]; omega
  | ⟨1, _⟩ => show win0_1.index t (1 : Fin 2) * 1 + 1 * 0 = 0; rw [e3]

theorem emb_result (t : Fin cfg0.N) (p : Fin 10000) (q : Fin 64) :
    ((cfg0.win 2).blk t).view.emb (ix2 p q) = ix2 (rowOf t p) q := by
  obtain ⟨-, -, -, -, e4, e5⟩ := block_indices t
  funext a; apply Fin.ext
  match a with
  | ⟨0, _⟩ => show win0_2.index t (0 : Fin 2) * 10000 + 1 * p.val = t.val * 10000 + p.val; rw [e4]; omega
  | ⟨1, _⟩ => show win0_2.index t (1 : Fin 2) * 64 + 1 * q.val = q.val; rw [e5]; omega

/-- The features' block at a point is the array read through the block. -/
theorem features_block (c : Dev nD) (t : Fin cfg0.N) (p : Fin 10000) (q : Fin 64) :
    iblk0 V c 0 t (ix2 p q) = V c main_arg0 (ix2 (rowOf t p) q) := by
  show V c main_arg0 (((cfg0.win 0).blk t).view.emb (ix2 p q)) = _
  rw [emb_features]

theorem weights_block (c : Dev nD) (t : Fin cfg0.N) (p : Fin 10000) :
    iblk0 V c 1 t (ix2 p (0 : Fin 1)) = V c main_arg1 (ix2 (rowOf t p) (0 : Fin 1)) := by
  show V c main_arg1 (((cfg0.win 1).blk t).view.emb (ix2 p (0 : Fin 1))) = _
  rw [emb_weights]

/-- What point t writes back is block t of the scaled array. -/
theorem flushed_eq (c : Dev nD) (t : Fin cfg0.N) :
    (dat0 (F := Ideal) V c).flushed 2 t
      = ((cfg0.win 2).blk t).view.read (Elt Ideal) (scaleRows (V c main_arg0) (V c main_arg1)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S10000x1) zeroOffsets]
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = scaleRows (V c main_arg0) (V c main_arg1) (((cfg0.win 2).blk t).view.emb (ix2 p q))
  rw [emb_result]
  refine (payload_apply (iblk0 V c 0 t) (iblk0 V c 1 t) p q).trans ?_
  rw [features_block, weights_block]
  rfl

/-- An index of the array is in point t's block iff each coordinate is in the block's range. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Row r lies in the block of point r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by exact Nat.lt_of_lt_of_eq (by omega : (i 0).val / 10000 < 10) N_0.symm
  obtain ⟨-, -, -, -, e4, e5⟩ := block_indices ⟨(i 0).val / 10000, hN⟩
  refine ⟨⟨(i 0).val / 10000, hN⟩, flush0_2 _, ?_⟩
  rw [mem_block]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    rw [e5]; omega

/-- The array the first scaling call leaves, whatever contents V it was entered at. -/
theorem arr0 (c : Dev nD) :
    (dat0 (F := Ideal) V c).arrAt 2 cfg0.N = scaleRows (V c main_arg0) (V c main_arg1) :=
  (dat0 (F := Ideal) V c).arrAt_eq_of_cover 2 _ (fun t _ => flushed_eq V c t) covered

end Cert.KernelIdeal.Val0

end
-- ==== Proof.Region1.lean ====
/-
  The first linear call: block t of the result is max((block t of h, rows scaled) · W + b, 0).
-/
import proofs.«134118_j19679540150348_1_alg».proof.Proof.Gen.KernelIdeal.Frame
import proofs.«134118_j19679540150348_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices, axis by axis -/

theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's contraction into the zero accumulator, at (p, q): the sum over the 64 shared coordinates. -/
theorem matmul_block_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The body's result at (p, q) of its block: the scaled row p of the features against column q of the matrix, plus
    the bias at q, cut below at zero. -/
theorem pay_apply (x0 : Vec Ideal S10000x64 .f32) (x1 : Vec Ideal S10000x1 .f32) (x2 : Vec Ideal S64x64 .f32)
    (x3 : Vec Ideal S1x64 .f32) (p : Fin 10000) (q : Fin 64) :
    k1_pay1 x0 x1 x2 x3 (ix2 p q)
      = max ((∑ k : Fin 64, (x0 (ix2 p k) * x1 (ix2 p (0 : Fin 1))) * x2 (ix2 k q)) + x3 (ix2 (0 : Fin 1) q))
          (Ideal.ofBits .f32 0x00000000#32) := by
  unfold k1_pay1
  rw [maximumf_apply, addf_apply, matmul_block_apply, broadcast_apply, shapeCast_self, shapeCast_self,
    broadcastTo_1b_ab_apply]
  refine congrArg₂ max (congrArg₂ (· + ·) (Finset.sum_congr rfl fun k _ => ?_) rfl) rfl
  rw [truncf_apply, truncf_apply, mulf_apply, broadcastTo_a1_ab_apply]

variable (V : (c : Dev nD) → (b : Ref sig .tc) → Buf (Elt Ideal) ((c : Thread nD τ).loc b))

/-! ## Where the blocks sit -/

theorem offsets_zero : (![0, 0] : Fin 2 → Nat) = fun _ => 0 := funext fun a => by fin_cases a <;> rfl

/-- The block indices over the ten points: the row-blocked windows (features, weights, result) are at block (t, 0),
    the matrix and the bias at block (0, 0). -/
theorem blk_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 10 := Nat.lt_of_lt_of_eq t.isLt N_1

/-- Row p of block t is row 10000 t + p of the array. -/
def arow (t : Fin cfg1.N) (p : Fin 10000) : Fin 100000 :=
  ⟨t.val * 10000 + p.val, by have := point_lt t; have := p.isLt; omega⟩

theorem arow_val (t : Fin cfg1.N) (p : Fin 10000) : (arow t p).val = t.val * 10000 + p.val := rfl

/-- The features' block t at (p, k) is the array at (10000 t + p, k). -/
theorem feat_blk (c : Dev nD) (t : Fin cfg1.N) (p : Fin 10000) (k : Fin 64) :
    (iblk1 V c 0 t : Vec Ideal S10000x64 .f32) (ix2 p k) = (V c main_v10 : S100000x64.Idx → EReal) (ix2 (arow t p) k) := by
  obtain ⟨e0, e1, -⟩ := blk_idx t
  unfold iblk1
  rw [View.read_apply]
  show (V c main_v10 : S100000x64.Idx → EReal) _ = _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The weights' block t at (p, 0) is the array at (10000 t + p, 0). -/
theorem wt_blk (c : Dev nD) (t : Fin cfg1.N) (p : Fin 10000) :
    (iblk1 V c 1 t : Vec Ideal S10000x1 .f32) (ix2 p (0 : Fin 1)) = (V c main_arg1 : S100000x1.Idx → EReal) (ix2 (arow t p) (0 : Fin 1)) := by
  obtain ⟨-, -, e0, e1, -⟩ := blk_idx t
  unfold iblk1
  rw [View.read_apply]
  show (V c main_arg1 : S100000x1.Idx → EReal) _ = _
  refine congrArg _ (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 1 + 1 * 0 = 0; rw [e1]

/-- The matrix's block is the whole matrix at every point. -/
theorem mat_blk (c : Dev nD) (t : Fin cfg1.N) (k : Fin 64) (q : Fin 64) :
    (iblk1 V c 2 t : Vec Ideal S64x64 .f32) (ix2 k q) = (V c main_arg4 : S64x64.Idx → EReal) (ix2 k q) := by
  obtain ⟨-, -, -, -, e0, e1, -⟩ := blk_idx t
  unfold iblk1
  rw [View.read_apply]
  show (V c main_arg4 : S64x64.Idx → EReal) _ = _
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The bias's block is the whole row at every point. -/
theorem bias_blk (c : Dev nD) (t : Fin cfg1.N) (q : Fin 64) :
    (iblk1 V c 3 t : Vec Ideal S1x64 .f32) (ix2 (0 : Fin 1) q) = (V c main_v11 : S1x64.Idx → EReal) (ix2 (0 : Fin 1) q) := by
  obtain ⟨-, -, -, -, -, -, e0, e1, -⟩ := blk_idx t
  unfold iblk1
  rw [View.read_apply]
  show (V c main_v11 : S1x64.Idx → EReal) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- The result's block t holds, at (p, q), row 10000 t + p and column q of the array. -/
theorem out_emb (t : Fin cfg1.N) (p : Fin 10000) (q : Fin 64) :
    ((cfg1.win 4).blk t).view.emb (ix2 p q) = (ix2 (arow t p) q : S100000x64.Idx) := by
  obtain ⟨-, -, -, -, -, -, -, -, e0, e1⟩ := blk_idx t
  funext a; apply Fin.ext
  match a with
  | ⟨0, _⟩ => show win1_4.index t (0 : Fin 2) * 10000 + 1 * p.val = t.val * 10000 + p.val; rw [e0]; omega
  | ⟨1, _⟩ => show win1_4.index t (1 : Fin 2) * 64 + 1 * q.val = q.val; rw [e1]; omega

/-! ## What a point leaves -/

/-- The body's result on the blocks of point t, at (p, q), is the layer's value at row 10000 t + p, column q. -/
theorem body_at (c : Dev nD) (t : Fin cfg1.N) (p : Fin 10000) (q : Fin 64) :
    k1_pay1 (iblk1 V c 0 t) (iblk1 V c 1 t) (iblk1 V c 2 t) (iblk1 V c 3 t) (ix2 p q)
      = relu64 (affine64 (V c main_v10) (V c main_arg1) (V c main_arg4) (V c main_v11)) (ix2 (arow t p) q) := by
  refine (pay_apply (iblk1 V c 0 t) (iblk1 V c 1 t) (iblk1 V c 2 t) (iblk1 V c 3 t) p q).trans ?_
  rw [relu64_apply, affine64_apply]
  refine congrArg₂ max (congrArg₂ (· + ·) (Finset.sum_congr rfl fun k _ => ?_) (bias_blk V c t q)) rfl
  rw [feat_blk V c t p k, wt_blk V c t p, mat_blk V c t k q]

/-- What point t writes back is block t of the layer's value. -/
theorem flushed_eq (c : Dev nD) (t : Fin cfg1.N) :
    (dat1 V c).flushed 4 t = ((cfg1.win 4).blk t).view.read (Elt Ideal)
      (relu64 (affine64 (V c main_v10) (V c main_arg1) (V c main_arg4) (V c main_v11))) := by
  show (cfg1.win 4).cut (grid1.coords t) ((dat1 V c).after 4 t) = _
  rw [after1_4]
  unfold out1_4
  rw [View.canon_unit_zero offsets_zero]
  simp only [View.ld_unit_zero (S := S10000x64) offsets_zero, View.ld_unit_zero (S := S10000x1) offsets_zero,
    View.ld_unit_zero (S := S64x64) offsets_zero, View.ld_unit_zero (S := S1x64) offsets_zero]
  funext j
  obtain ⟨p, q, rfl⟩ : ∃ (p : Fin 10000) (q : Fin 64), j = ix2 p q := ⟨j 0, j 1, eq_ix2 j⟩
  refine (body_at V c t p q).trans ?_
  rw [View.read_apply, out_emb t p q]
  rfl

/-! ## From the blocks to the array -/

/-- An index of the array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v12).slice (win1_4.rect t)).set ↔ _
  rw [View.set_slice_whole, Rect.mem_set_unit]
  exact Iff.rfl

/-- Row r of the array is in the block of point r / 10000, and every point writes its block back. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, Nat.lt_of_lt_of_eq (by omega) N_1.symm⟩, rfl⟩
  obtain ⟨-, -, -, -, -, -, -, -, e0, e1⟩ := blk_idx t
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 64 ≤ (i 1).val ∧ (i 1).val < win1_4.index t (1 : Fin 2) * 64 + 64
    rw [e1]; omega

/-- The array the first linear call leaves, whatever contents V it was entered at. -/
theorem arr1 (c : Dev nD) :
    (dat1 (F := Ideal) V c).arrAt 4 cfg1.N
      = relu64 (affine64 (V c main_v10) (V c main_arg1) (V c main_arg4) (V c main_v11)) :=
  (dat1 V c).arrAt_eq_of_cover 4 _ (fun t _ => flushed_eq V c t) covered

end Cert.KernelIdeal.Val1

end
-- ==== Proof.Region2.lean ====
/-
  The second scaling call, on the first layer's output: ten blocks of 10000 rows; block t of the result is block t of the
  features, each row times its node's weight.  So the array it leaves is scaleRows of the two arrays it was entered with.
-/
import proofs.«134118_j19679540150348_1_alg».proof.Proof.Gen.KernelIdeal.Frame
import proofs.«134118_j19679540150348_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- A column of 10000 weights broadcast along 64 columns reads, at (p, q), the weight of row p. -/
theorem column_broadcast (x1 : Vec Ideal S10000x1 .f32) (p : Fin 10000) (q : Fin 64) :
    broadcastTo S10000x64 x1 broadcasts_S10000x1_S10000x64 (ix2 p q) = x1 (ix2 p (0 : Fin 1)) := by
  refine broadcastTo_apply x1 _ (ix2 p q) (ix2 p (0 : Fin 1)) fun ax => ?_
  match ax with
  | ⟨0, _⟩ => show p.val = if (10000 : Nat) = 1 then 0 else p.val; rw [if_neg (by decide)]
  | ⟨1, _⟩ => show (0 : Nat) = if (1 : Nat) = 1 then 0 else q.val; rw [if_pos rfl]

/-- The body's one stored value at (p, q): the feature times the row's weight. -/
theorem payload_apply (x0 : Vec Ideal S10000x64 .f32) (x1 : Vec Ideal S10000x1 .f32) (p : Fin 10000) (q : Fin 64) :
    k2_pay1 x0 x1 (ix2 p q) = x0 (ix2 p q) * x1 (ix2 p (0 : Fin 1)) := by
  unfold k2_pay1
  show shapeCast S10000x64 x0 shapeCasts_S10000x64_S10000x64 (ix2 p q) * broadcastTo S10000x64 x1 broadcasts_S10000x1_S10000x64 (ix2 p q) = _
  rw [shapeCast_self, column_broadcast]

/-- Block t of every window starts at row 10000 · t and column 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of block t is row 10000 · t + p of the array. -/
def rowOf (t : Fin cfg2.N) (p : Fin 10000) : Fin 100000 :=
  ⟨t.val * 10000 + p.val, by have h : t.val < 10 := Nat.lt_of_lt_of_eq t.isLt N_2
                             have := p.isLt; omega⟩

theorem emb_features (t : Fin cfg2.N) (p : Fin 10000) (q : Fin 64) :
    ((cfg2.win 0).blk t).view.emb (ix2 p q) = ix2 (rowOf t p) q := by
  obtain ⟨e0, e1, -, -, -, -⟩ := block_indices t
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * q.val = q.val; rw [e1]; omega

theorem emb_weights (t : Fin cfg2.N) (p : Fin 10000) :
    ((cfg2.win 1).blk t).view.emb (ix2 p (0 : Fin 1)) = ix2 (rowOf t p) (0 : Fin 1) := by
  obtain ⟨-, -, e2, e3, -, -⟩ := block_indices t
  funext a; apply Fin.ext
  match a with
  | ⟨0, _⟩ => show win2_1.index t (0 : Fin 2) * 10000 + 1 * p.val = t.val * 10000 + p.val; rw [e2]; omega
  | ⟨1, _⟩ => show win2_1.index t (1 : Fin 2) * 1 + 1 * 0 = 0; rw [e3]

theorem emb_result (t : Fin cfg2.N) (p : Fin 10000) (q : Fin 64) :
    ((cfg2.win 2).blk t).view.emb (ix2 p q) = ix2 (rowOf t p) q := by
  obtain ⟨-, -, -, -, e4, e5⟩ := block_indices t
  funext a; apply Fin.ext
  match a with
  | ⟨0, _⟩ => show win2_2.index t (0 : Fin 2) * 10000 + 1 * p.val = t.val * 10000 + p.val; rw [e4]; omega
  | ⟨1, _⟩ => show win2_2.index t (1 : Fin 2) * 64 + 1 * q.val = q.val; rw [e5]; omega

/-- The features' block at a point is the array read through the block. -/
theorem features_block (c : Dev nD) (t : Fin cfg2.N) (p : Fin 10000) (q : Fin 64) :
    iblk2 V c 0 t (ix2 p q) = V c main_v12 (ix2 (rowOf t p) q) := by
  show V c main_v12 (((cfg2.win 0).blk t).view.emb (ix2 p q)) = _
  rw [emb_features]

theorem weights_block (c : Dev nD) (t : Fin cfg2.N) (p : Fin 10000) :
    iblk2 V c 1 t (ix2 p (0 : Fin 1)) = V c main_arg1 (ix2 (rowOf t p) (0 : Fin 1)) := by
  show V c main_arg1 (((cfg2.win 1).blk t).view.emb (ix2 p (0 : Fin 1))) = _
  rw [emb_weights]

/-- What point t writes back is block t of the scaled array. -/
theorem flushed_eq (c : Dev nD) (t : Fin cfg2.N) :
    (dat2 (F := Ideal) V c).flushed 2 t
      = ((cfg2.win 2).blk t).view.read (Elt Ideal) (scaleRows (V c main_v12) (V c main_arg1)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S10000x1) zeroOffsets]
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = scaleRows (V c main_v12) (V c main_arg1) (((cfg2.win 2).blk t).view.emb (ix2 p q))
  rw [emb_result]
  refine (payload_apply (iblk2 V c 0 t) (iblk2 V c 1 t) p q).trans ?_
  rw [features_block, weights_block]
  rfl

/-- An index of the array is in point t's block iff each coordinate is in the block's range. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v13).slice (win2_2.rect t)).set ↔ _
  rw [View.set_slice_whole, Rect.mem_set_unit]
  exact Iff.rfl

/-- Row r lies in the block of point r / 10000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := by exact Nat.lt_of_lt_of_eq (by omega : (i 0).val / 10000 < 10) N_2.symm
  obtain ⟨-, -, -, -, e4, e5⟩ := block_indices ⟨(i 0).val / 10000, hN⟩
  refine ⟨⟨(i 0).val / 10000, hN⟩, flush2_2 _, ?_⟩
  rw [mem_block]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val
      ∧ (i 1).val < win2_2.index ⟨(i 0).val / 10000, hN⟩ (1 : Fin 2) * 64 + 64
    rw [e5]; omega

/-- The array the second scaling call leaves, whatever contents V it was entered at. -/
theorem arr2 (c : Dev nD) :
    (dat2 (F := Ideal) V c).arrAt 2 cfg2.N = scaleRows (V c main_v12) (V c main_arg1) :=
  (dat2 (F := Ideal) V c).arrAt_eq_of_cover 2 _ (fun t _ => flushed_eq V c t) covered

end Cert.KernelIdeal.Val2

end
-- ==== Proof.Region3.lean ====
/-
  The second linear call: block t of the result is (block t of h, rows scaled) · W + b, 40 columns.
-/
import proofs.«134118_j19679540150348_1_alg».proof.Proof.Gen.KernelIdeal.Frame
import proofs.«134118_j19679540150348_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices, axis by axis -/

theorem lhs_dot_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_dot_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem rhs_dot_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem rhs_dot_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The block's contraction into the zero accumulator, at (p, q): the sum over the 64 shared coordinates. -/
theorem matmul_block_apply (A : FVec Ideal S10000x64 .bf16) (B : FVec Ideal S64x40 .bf16) (p : Fin 10000) (q : Fin 40) :
    matmul dot_S10000x64_S64x40_S10000x40_1_0_0_1_n_n none A B (constant (F := Ideal) S10000x40 .f32 0x00000000#32) (ix2 p q)
      = ∑ k : Fin 64, A (ix2 p k) * B (ix2 k q) := by
  simp only [matmul]
  rw [Ideal.matmul_constant_zero_apply, ← Equiv.sum_comp (ValueIdx.contrEquiv1 dot_S10000x64_S64x40_S10000x40_1_0_0_1_n_n 64 rfl rfl).symm]
  refine Finset.sum_congr rfl fun k _ => ?_
  have hk := ValueIdx.contrEquiv1_symm_val dot_S10000x64_S64x40_S10000x40_1_0_0_1_n_n 64 rfl rfl k
  have el : dot_S10000x64_S64x40_S10000x40_1_0_0_1_n_n.lhsIdx (ix2 p q) ((ValueIdx.contrEquiv1 dot_S10000x64_S64x40_S10000x40_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x40_S10000x40_1_0_0_1_n_n.rhsIdx (ix2 p q) ((ValueIdx.contrEquiv1 dot_S10000x64_S64x40_S10000x40_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The body's result at (p, q) of its block: the scaled row p of the features against column q of the matrix, plus
    the bias at q. -/
theorem pay_apply (x0 : Vec Ideal S10000x64 .f32) (x1 : Vec Ideal S10000x1 .f32) (x2 : Vec Ideal S64x40 .f32)
    (x3 : Vec Ideal S1x40 .f32) (p : Fin 10000) (q : Fin 40) :
    k3_pay1 x0 x1 x2 x3 (ix2 p q)
      = (∑ k : Fin 64, (x0 (ix2 p k) * x1 (ix2 p (0 : Fin 1))) * x2 (ix2 k q)) + x3 (ix2 (0 : Fin 1) q) := by
  unfold k3_pay1
  rw [addf_apply, matmul_block_apply, shapeCast_self, shapeCast_self, broadcastTo_1b_ab_apply]
  refine congrArg₂ (· + ·) (Finset.sum_congr rfl fun k _ => ?_) rfl
  rw [truncf_apply, truncf_apply, mulf_apply, broadcastTo_a1_ab_apply]

variable (V : (c : Dev nD) → (b : Ref sig .tc) → Buf (Elt Ideal) ((c : Thread nD τ).loc b))

/-! ## Where the blocks sit -/

theorem offsets_zero : (![0, 0] : Fin 2 → Nat) = fun _ => 0 := funext fun a => by fin_cases a <;> rfl

/-- The block indices over the ten points: the row-blocked windows (features, weights, result) are at block (t, 0),
    the matrix and the bias at block (0, 0). -/
theorem blk_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem point_lt (t : Fin cfg3.N) : t.val < 10 := Nat.lt_of_lt_of_eq t.isLt N_3

/-- Row p of block t is row 10000 t + p of the array. -/
def arow (t : Fin cfg3.N) (p : Fin 10000) : Fin 100000 :=
  ⟨t.val * 10000 + p.val, by have := point_lt t; have := p.isLt; omega⟩

theorem arow_val (t : Fin cfg3.N) (p : Fin 10000) : (arow t p).val = t.val * 10000 + p.val := rfl

/-- The features' block t at (p, k) is the array at (10000 t + p, k). -/
theorem feat_blk (c : Dev nD) (t : Fin cfg3.N) (p : Fin 10000) (k : Fin 64) :
    (iblk3 V c 0 t : Vec Ideal S10000x64 .f32) (ix2 p k) = (V c main_v23 : S100000x64.Idx → EReal) (ix2 (arow t p) k) := by
  obtain ⟨e0, e1, -⟩ := blk_idx t
  unfold iblk3
  rw [View.read_apply]
  show (V c main_v23 : S100000x64.Idx → EReal) _ = _
  refine congrArg _ (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * k.val = k.val; rw [e1]; omega

/-- The weights' block t at (p, 0) is the array at (10000 t + p, 0). -/
theorem wt_blk (c : Dev nD) (t : Fin cfg3.N) (p : Fin 10000) :
    (iblk3 V c 1 t : Vec Ideal S10000x1 .f32) (ix2 p (0 : Fin 1)) = (V c main_arg1 : S100000x1.Idx → EReal) (ix2 (arow t p) (0 : Fin 1)) := by
  obtain ⟨-, -, e0, e1, -⟩ := blk_idx t
  unfold iblk3
  rw [View.read_apply]
  show (V c main_arg1 : S100000x1.Idx → EReal) _ = _
  refine congrArg _ (funext fun a => Fin.ext ?_)
  match a with
  | ⟨0, _⟩ => show win3_1.index t (0 : Fin 2) * 10000 + 1 * p.val = t.val * 10000 + p.val; rw [e0]; omega
  | ⟨1, _⟩ => show win3_1.index t (1 : Fin 2) * 1 + 1 * 0 = 0; rw [e1]

/-- The matrix's block is the whole matrix at every point. -/
theorem mat_blk (c : Dev nD) (t : Fin cfg3.N) (k : Fin 64) (q : Fin 40) :
    (iblk3 V c 2 t : Vec Ideal S64x40 .f32) (ix2 k q) = (V c main_arg6 : S64x40.Idx → EReal) (ix2 k q) := by
  obtain ⟨-, -, -, -, e0, e1, -⟩ := blk_idx t
  unfold iblk3
  rw [View.read_apply]
  show (V c main_arg6 : S64x40.Idx → EReal) _ = _
  refine congrArg _ (funext fun a => Fin.ext ?_)
  match a with
  | ⟨0, _⟩ => show win3_2.index t (0 : Fin 2) * 64 + 1 * k.val = k.val; rw [e0]; omega
  | ⟨1, _⟩ => show win3_2.index t (1 : Fin 2) * 40 + 1 * q.val = q.val; rw [e1]; omega

/-- The bias's block is the whole row at every point. -/
theorem bias_blk (c : Dev nD) (t : Fin cfg3.N) (q : Fin 40) :
    (iblk3 V c 3 t : Vec Ideal S1x40 .f32) (ix2 (0 : Fin 1) q) = (V c main_v24 : S1x40.Idx → EReal) (ix2 (0 : Fin 1) q) := by
  obtain ⟨-, -, -, -, -, -, e0, e1, -⟩ := blk_idx t
  unfold iblk3
  rw [View.read_apply]
  show (V c main_v24 : S1x40.Idx → EReal) _ = _
  refine congrArg _ (funext fun a => Fin.ext ?_)
  match a with
  | ⟨0, _⟩ => show win3_3.index t (0 : Fin 2) * 1 + 1 * 0 = 0; rw [e0]
  | ⟨1, _⟩ => show win3_3.index t (1 : Fin 2) * 40 + 1 * q.val = q.val; rw [e1]; omega

/-- The result's block t holds, at (p, q), row 10000 t + p and column q of the array. -/
theorem out_emb (t : Fin cfg3.N) (p : Fin 10000) (q : Fin 40) :
    ((cfg3.win 4).blk t).view.emb (ix2 p q) = (ix2 (arow t p) q : S100000x40.Idx) := by
  obtain ⟨-, -, -, -, -, -, -, -, e0, e1⟩ := blk_idx t
  funext a; apply Fin.ext
  match a with
  | ⟨0, _⟩ => show win3_4.index t (0 : Fin 2) * 10000 + 1 * p.val = t.val * 10000 + p.val; rw [e0]; omega
  | ⟨1, _⟩ => show win3_4.index t (1 : Fin 2) * 40 + 1 * q.val = q.val; rw [e1]; omega

/-! ## What a point leaves -/

/-- The body's result on the blocks of point t, at (p, q), is the layer's value at row 10000 t + p, column q. -/
theorem body_at (c : Dev nD) (t : Fin cfg3.N) (p : Fin 10000) (q : Fin 40) :
    k3_pay1 (iblk3 V c 0 t) (iblk3 V c 1 t) (iblk3 V c 2 t) (iblk3 V c 3 t) (ix2 p q)
      = affine40 (V c main_v23) (V c main_arg1) (V c main_arg6) (V c main_v24) (ix2 (arow t p) q) := by
  refine (pay_apply (iblk3 V c 0 t) (iblk3 V c 1 t) (iblk3 V c 2 t) (iblk3 V c 3 t) p q).trans ?_
  rw [affine40_apply]
  refine congrArg₂ (· + ·) (Finset.sum_congr rfl fun k _ => ?_) (bias_blk V c t q)
  rw [feat_blk V c t p k, wt_blk V c t p, mat_blk V c t k q]

/-- What point t writes back is block t of the layer's value. -/
theorem flushed_eq (c : Dev nD) (t : Fin cfg3.N) :
    (dat3 V c).flushed 4 t = ((cfg3.win 4).blk t).view.read (Elt Ideal)
      (affine40 (V c main_v23) (V c main_arg1) (V c main_arg6) (V c main_v24)) := by
  show (cfg3.win 4).cut (grid3.coords t) ((dat3 V c).after 4 t) = _
  rw [after3_4]
  unfold out3_4
  rw [View.canon_unit_zero offsets_zero]
  simp only [View.ld_unit_zero (S := S10000x64) offsets_zero, View.ld_unit_zero (S := S10000x1) offsets_zero,
    View.ld_unit_zero (S := S64x40) offsets_zero, View.ld_unit_zero (S := S1x40) offsets_zero]
  funext j
  obtain ⟨p, q, rfl⟩ : ∃ (p : Fin 10000) (q : Fin 40), j = ix2 p q := ⟨j 0, j 1, eq_ix2 j⟩
  refine (body_at V c t p q).trans ?_
  rw [View.read_apply, out_emb t p q]
  rfl

/-! ## From the blocks to the array -/

/-- An index of the array is in point t's block iff each coordinate is in the block's range on its axis. -/
theorem mem_blk (t : Fin cfg3.N) (i : S100000x40.Idx) :
    i ∈ ((cfg3.win 4).blk t).view.set ↔ ∀ a : Fin 2, win3_4.index t a * S10000x40.size a ≤ (i a).val ∧ (i a).val < win3_4.index t a * S10000x40.size a + S10000x40.size a := by
  show i ∈ ((View.whole main_v25).slice (win3_4.rect t)).set ↔ _
  rw [View.set_slice_whole, Rect.mem_set_unit]
  exact Iff.rfl

/-- Row r of the array is in the block of point r / 10000, and every point writes its block back. -/
theorem covered (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  obtain ⟨t, ht⟩ : ∃ t : Fin cfg3.N, t.val = (i 0).val / 10000 :=
    ⟨⟨(i 0).val / 10000, Nat.lt_of_lt_of_eq (by omega) N_3.symm⟩, rfl⟩
  obtain ⟨-, -, -, -, -, -, -, -, e0, e1⟩ := blk_idx t
  refine ⟨t, flush3_4 t, ?_⟩
  rw [mem_blk]
  intro a
  match a with
  | ⟨0, _⟩ =>
    show win3_4.index t (0 : Fin 2) * 10000 ≤ (i 0).val ∧ (i 0).val < win3_4.index t (0 : Fin 2) * 10000 + 10000
    rw [e0, ht]; omega
  | ⟨1, _⟩ =>
    show win3_4.index t (1 : Fin 2) * 40 ≤ (i 1).val ∧ (i 1).val < win3_4.index t (1 : Fin 2) * 40 + 40
    rw [e1]; omega

/-- The array the second linear call leaves, whatever contents V it was entered at. -/
theorem arr3 (c : Dev nD) :
    (dat3 (F := Ideal) V c).arrAt 4 cfg3.N
      = affine40 (V c main_v23) (V c main_arg1) (V c main_arg6) (V c main_v24) :=
  (dat3 V c).arrAt_eq_of_cover 4 _ (fun t _ => flushed_eq V c t) covered

end Cert.KernelIdeal.Val3

end
-- ==== Proof.Chain.lean ====
/-
  The contents of every buffer the four calls read, boundary by boundary from the launch to the return, and with
  them the result array as the two layers of Spec.lean of the launch contents.

  Between the calls the host glue computes the sum over incoming edges (a row gather at the wrapped source indices,
  then a scatter-add into zeros at the destination indices), carried here as one function `agg` that is never
  opened, and lays a bias vector out as a one-row matrix.  No call and no host operation writes an argument array.
-/
import proofs.«134118_j19679540150348_1_alg».proof.Proof.Region0
import proofs.«134118_j19679540150348_1_alg».proof.Proof.Region1
import proofs.«134118_j19679540150348_1_alg».proof.Proof.Region2
import proofs.«134118_j19679540150348_1_alg».proof.Proof.Region3
import Idealize.ShloMosaic.Lib.StableHlo.Run

set_option maxRecDepth 16384

noncomputable section

open scoped BigOperators

namespace Cert.KernelIdeal.Chain

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- Sum over incoming edges: gather rows of h at the source indices (a negative index wrapped by 100000), then add
    each gathered row into the row of its destination index, starting from zeros. -/
def agg (src dst : IVec S1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A 64-vector reshaped to one row is the vector laid out as a row. -/
theorem reshape_row64 (b : FVec Ideal S64 .f32) : (fun i => shapeCast S1x64 b shapeCasts_S64_S1x64 i) = asRow64 b := by
  funext i
  obtain ⟨u, q, rfl⟩ : ∃ (u : Fin 1) (q : Fin 64), i = ix2 u q := ⟨i 0, i 1, eq_ix2 i⟩
  exact shapeCast_a_1a_apply b _ u q

/-- A 40-vector reshaped to one row is the vector laid out as a row. -/
theorem reshape_row40 (b : FVec Ideal S40 .f32) : (fun i => shapeCast S1x40 b shapeCasts_S40_S1x40 i) = asRow40 b := by
  funext i
  obtain ⟨u, q, rfl⟩ : ∃ (u : Fin 1) (q : Fin 40), i = ix2 u q := ⟨i 0, i 1, eq_ix2 i⟩
  exact shapeCast_a_1a_apply b _ u q

/-! ## After the first scaling call -/
theorem W1_main_arg2 (c : Dev nD) : W1 m ρ c (Proc.devRef .tc main_arg2) = m ((c : Thread nD τ).loc main_arg2) := W1_of_ne m ρ c main_arg2 (by decide)
theorem W1_main_arg3 (c : Dev nD) : W1 m ρ c (Proc.devRef .tc main_arg3) = m ((c : Thread nD τ).loc main_arg3) := W1_of_ne m ρ c main_arg3 (by decide)
theorem W1_main_arg4 (c : Dev nD) : W1 m ρ c (Proc.devRef .tc main_arg4) = m ((c : Thread nD τ).loc main_arg4) := W1_of_ne m ρ c main_arg4 (by decide)
theorem W1_main_arg5 (c : Dev nD) : W1 m ρ c (Proc.devRef .tc main_arg5) = m ((c : Thread nD τ).loc main_arg5) := W1_of_ne m ρ c main_arg5 (by decide)
theorem W1_main_arg6 (c : Dev nD) : W1 m ρ c (Proc.devRef .tc main_arg6) = m ((c : Thread nD τ).loc main_arg6) := W1_of_ne m ρ c main_arg6 (by decide)
theorem W1_main_arg7 (c : Dev nD) : W1 m ρ c (Proc.devRef .tc main_arg7) = m ((c : Thread nD τ).loc main_arg7) := W1_of_ne m ρ c main_arg7 (by decide)
theorem W1_main_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_main_v0 (c : Dev nD) : W1 m ρ c (Proc.devRef .tc main_v0) = scaleRows (m ((c : Thread nD τ).loc main_arg0)) (m ((c : Thread nD τ).loc main_arg1)) :=
  (W1_arr m ρ c 2).trans (Val0.arr0 (V0 m ρ) c)

/-! ## After the first stretch of host glue -/
theorem W2_main_arg1 (c : Dev nD) : W2 m ρ c (Proc.devRef .tc main_arg1) = m ((c : Thread nD τ).loc main_arg1) :=
  (show StableHlo.after hostOps1 (W1 m ρ c) (Proc.devRef .tc main_arg1) = W1 m ρ c (Proc.devRef .tc main_arg1) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg1 m ρ c)
theorem W2_main_arg2 (c : Dev nD) : W2 m ρ c (Proc.devRef .tc main_arg2) = m ((c : Thread nD τ).loc main_arg2) :=
  (show StableHlo.after hostOps1 (W1 m ρ c) (Proc.devRef .tc main_arg2) = W1 m ρ c (Proc.devRef .tc main_arg2) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg2 m ρ c)
theorem W2_main_arg3 (c : Dev nD) : W2 m ρ c (Proc.devRef .tc main_arg3) = m ((c : Thread nD τ).loc main_arg3) :=
  (show StableHlo.after hostOps1 (W1 m ρ c) (Proc.devRef .tc main_arg3) = W1 m ρ c (Proc.devRef .tc main_arg3) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg3 m ρ c)
theorem W2_main_arg4 (c : Dev nD) : W2 m ρ c (Proc.devRef .tc main_arg4) = m ((c : Thread nD τ).loc main_arg4) :=
  (show StableHlo.after hostOps1 (W1 m ρ c) (Proc.devRef .tc main_arg4) = W1 m ρ c (Proc.devRef .tc main_arg4) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg4 m ρ c)
theorem W2_main_arg6 (c : Dev nD) : W2 m ρ c (Proc.devRef .tc main_arg6) = m ((c : Thread nD τ).loc main_arg6) :=
  (show StableHlo.after hostOps1 (W1 m ρ c) (Proc.devRef .tc main_arg6) = W1 m ρ c (Proc.devRef .tc main_arg6) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg6 m ρ c)
theorem W2_main_arg7 (c : Dev nD) : W2 m ρ c (Proc.devRef .tc main_arg7) = m ((c : Thread nD τ).loc main_arg7) :=
  (show StableHlo.after hostOps1 (W1 m ρ c) (Proc.devRef .tc main_arg7) = W1 m ρ c (Proc.devRef .tc main_arg7) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg7 m ρ c)
theorem W2_main_v10 (c : Dev nD) : W2 m ρ c (Proc.devRef .tc main_v10)
    = agg (m ((c : Thread nD τ).loc main_arg2)) (m ((c : Thread nD τ).loc main_arg3)) (scaleRows (m ((c : Thread nD τ).loc main_arg0)) (m ((c : Thread nD τ).loc main_arg1))) := by
  show StableHlo.after hostOps1 (W1 m ρ c) (Proc.devRef .tc main_v10) = _
  after_results
  rw [W1_main_arg2, W1_main_arg3, W1_main_v0]
  rfl
theorem W2_main_v11 (c : Dev nD) : W2 m ρ c (Proc.devRef .tc main_v11) = asRow64 (m ((c : Thread nD τ).loc main_arg5)) := by
  show StableHlo.after hostOps1 (W1 m ρ c) (Proc.devRef .tc main_v11) = _
  after_results
  rw [W1_main_arg5]
  exact reshape_row64 _

/-! ## After the first linear call -/
theorem W3_main_arg2 (c : Dev nD) : W3 m ρ c (Proc.devRef .tc main_arg2) = m ((c : Thread nD τ).loc main_arg2) := (W3_of_ne m ρ c main_arg2 (by decide)).trans (W2_main_arg2 m ρ c)
theorem W3_main_arg3 (c : Dev nD) : W3 m ρ c (Proc.devRef .tc main_arg3) = m ((c : Thread nD τ).loc main_arg3) := (W3_of_ne m ρ c main_arg3 (by decide)).trans (W2_main_arg3 m ρ c)
theorem W3_main_arg6 (c : Dev nD) : W3 m ρ c (Proc.devRef .tc main_arg6) = m ((c : Thread nD τ).loc main_arg6) := (W3_of_ne m ρ c main_arg6 (by decide)).trans (W2_main_arg6 m ρ c)
theorem W3_main_arg7 (c : Dev nD) : W3 m ρ c (Proc.devRef .tc main_arg7) = m ((c : Thread nD τ).loc main_arg7) := (W3_of_ne m ρ c main_arg7 (by decide)).trans (W2_main_arg7 m ρ c)
theorem W3_main_arg1 (c : Dev nD) : W3 m ρ c (Proc.devRef .tc main_arg1) = m ((c : Thread nD τ).loc main_arg1) :=
  ((W3_arr m ρ c 1).trans (((dat1 (V2 m ρ) c).arrAt_in 1 rfl _).trans (A_eq1 (V2 m ρ) c 1))).trans (W2_main_arg1 m ρ c)
theorem W3_main_v12 (c : Dev nD) : W3 m ρ c (Proc.devRef .tc main_v12)
    = relu64 (affine64 (agg (m ((c : Thread nD τ).loc main_arg2)) (m ((c : Thread nD τ).loc main_arg3)) (scaleRows (m ((c : Thread nD τ).loc main_arg0)) (m ((c : Thread nD τ).loc main_arg1)))) (m ((c : Thread nD τ).loc main_arg1)) (m ((c : Thread nD τ).loc main_arg4)) (asRow64 (m ((c : Thread nD τ).loc main_arg5)))) := by
  refine (W3_arr m ρ c 4).trans ((Val1.arr1 (V2 m ρ) c).trans ?_)
  show relu64 (affine64 (W2 m ρ c (Proc.devRef .tc main_v10)) (W2 m ρ c (Proc.devRef .tc main_arg1)) (W2 m ρ c (Proc.devRef .tc main_arg4)) (W2 m ρ c (Proc.devRef .tc main_v11))) = _
  rw [W2_main_v10, W2_main_arg1, W2_main_arg4, W2_main_v11]

/-! ## After the second scaling call -/
theorem W4_main_arg2 (c : Dev nD) : W4 m ρ c (Proc.devRef .tc main_arg2) = m ((c : Thread nD τ).loc main_arg2) := (W4_of_ne m ρ c main_arg2 (by decide)).trans (W3_main_arg2 m ρ c)
theorem W4_main_arg3 (c : Dev nD) : W4 m ρ c (Proc.devRef .tc main_arg3) = m ((c : Thread nD τ).loc main_arg3) := (W4_of_ne m ρ c main_arg3 (by decide)).trans (W3_main_arg3 m ρ c)
theorem W4_main_arg6 (c : Dev nD) : W4 m ρ c (Proc.devRef .tc main_arg6) = m ((c : Thread nD τ).loc main_arg6) := (W4_of_ne m ρ c main_arg6 (by decide)).trans (W3_main_arg6 m ρ c)
theorem W4_main_arg7 (c : Dev nD) : W4 m ρ c (Proc.devRef .tc main_arg7) = m ((c : Thread nD τ).loc main_arg7) := (W4_of_ne m ρ c main_arg7 (by decide)).trans (W3_main_arg7 m ρ c)
theorem W4_main_arg1 (c : Dev nD) : W4 m ρ c (Proc.devRef .tc main_arg1) = m ((c : Thread nD τ).loc main_arg1) :=
  ((W4_arr m ρ c 1).trans (((dat2 (V3 m ρ) c).arrAt_in 1 rfl _).trans (A_eq2 (V3 m ρ) c 1))).trans (W3_main_arg1 m ρ c)
theorem W4_main_v13 (c : Dev nD) : W4 m ρ c (Proc.devRef .tc main_v13)
    = scaleRows (relu64 (affine64 (agg (m ((c : Thread nD τ).loc main_arg2)) (m ((c : Thread nD τ).loc main_arg3)) (scaleRows (m ((c : Thread nD τ).loc main_arg0)) (m ((c : Thread nD τ).loc main_arg1)))) (m ((c : Thread nD τ).loc main_arg1)) (m ((c : Thread nD τ).loc main_arg4)) (asRow64 (m ((c : Thread nD τ).loc main_arg5))))) (m ((c : Thread nD τ).loc main_arg1)) := by
  refine (W4_arr m ρ c 2).trans ((Val2.arr2 (V3 m ρ) c).trans ?_)
  show scaleRows (W3 m ρ c (Proc.devRef .tc main_v12)) (W3 m ρ c (Proc.devRef .tc main_arg1)) = _
  rw [W3_main_v12, W3_main_arg1]

/-! ## After the second stretch of host glue -/
theorem W5_main_arg1 (c : Dev nD) : W5 m ρ c (Proc.devRef .tc main_arg1) = m ((c : Thread nD τ).loc main_arg1) :=
  (show StableHlo.after hostOps3 (W4 m ρ c) (Proc.devRef .tc main_arg1) = W4 m ρ c (Proc.devRef .tc main_arg1) from
    StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg1 m ρ c)
theorem W5_main_arg6 (c : Dev nD) : W5 m ρ c (Proc.devRef .tc main_arg6) = m ((c : Thread nD τ).loc main_arg6) :=
  (show StableHlo.after hostOps3 (W4 m ρ c) (Proc.devRef .tc main_arg6) = W4 m ρ c (Proc.devRef .tc main_arg6) from
    StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg6 m ρ c)
theorem W5_main_v23 (c : Dev nD) : W5 m ρ c (Proc.devRef .tc main_v23)
    = agg (m ((c : Thread nD τ).loc main_arg2)) (m ((c : Thread nD τ).loc main_arg3)) (scaleRows (relu64 (affine64 (agg (m ((c : Thread nD τ).loc main_arg2)) (m ((c : Thread nD τ).loc main_arg3)) (scaleRows (m ((c : Thread nD τ).loc main_arg0)) (m ((c : Thread nD τ).loc main_arg1)))) (m ((c : Thread nD τ).loc main_arg1)) (m ((c : Thread nD τ).loc main_arg4)) (asRow64 (m ((c : Thread nD τ).loc main_arg5))))) (m ((c : Thread nD τ).loc main_arg1))) := by
  show StableHlo.after hostOps3 (W4 m ρ c) (Proc.devRef .tc main_v23) = _
  after_results
  rw [W4_main_arg2, W4_main_arg3, W4_main_v13]
  rfl
theorem W5_main_v24 (c : Dev nD) : W5 m ρ c (Proc.devRef .tc main_v24) = asRow40 (m ((c : Thread nD τ).loc main_arg7)) := by
  show StableHlo.after hostOps3 (W4 m ρ c) (Proc.devRef .tc main_v24) = _
  after_results
  rw [W4_main_arg7]
  exact reshape_row40 _

/-! ## At the return -/

/-- The result array at the return is the two layers of the launch contents. -/
theorem result_eq (c : Dev nD) : W6 m ρ c (Proc.devRef .tc main_v25)
    = twoLayers (agg (m ((c : Thread nD τ).loc main_arg2)) (m ((c : Thread nD τ).loc main_arg3))) (m ((c : Thread nD τ).loc main_arg0)) (m ((c : Thread nD τ).loc main_arg1)) (m ((c : Thread nD τ).loc main_arg4)) (asRow64 (m ((c : Thread nD τ).loc main_arg5))) (m ((c : Thread nD τ).loc main_arg6)) (asRow40 (m ((c : Thread nD τ).loc main_arg7))) := by
  refine (W6_arr m ρ c 4).trans ((Val3.arr3 (V5 m ρ) c).trans ?_)
  show affine40 (W5 m ρ c (Proc.devRef .tc main_v23)) (W5 m ρ c (Proc.devRef .tc main_arg1)) (W5 m ρ c (Proc.devRef .tc main_arg6)) (W5 m ρ c (Proc.devRef .tc main_v24)) = _
  rw [W5_main_v23, W5_main_arg1, W5_main_arg6, W5_main_v24]
  rfl

end Cert.KernelIdeal.Chain

end
-- ==== Proof.RefValue.lean ====
/-
  The reference's result, stage by stage, is the two layers of Spec.lean over the aggregation as the reference
  spells it: a row gather at the (wrapped) source indices followed by a scatter-add into zeros at the destination
  indices.  The gather and the scatter-add are never opened: they are carried as one function `agg`.
-/
import proofs.«134118_j19679540150348_1_alg».proof.Proof.Gen.ReferenceIdeal.Read
import proofs.«134118_j19679540150348_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefVal

open Cert.ReferenceIdeal Cert.ReferenceIdeal.Gen Cert.Gcn
open Idealize.ShloMosaic Idealize.ShloMosaic.TcCoe Idealize.ShloMosaic.ValueIdx Idealize.SL.Sem Idealize.ShloMosaic.StableHlo

/-- Sum over incoming edges: gather rows of h at the source indices (a negative index wrapped by 100000), then add
    each gathered row into the row of its destination index, starting from zeros. -/
def agg (src dst : IVec S1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ### Index arithmetic: the generated index maps, at an index given by its coordinates -/

/-- Column broadcast of the node weights: entry (r, q) reads the weight of node r. -/
theorem idx_v0 (r : Fin 100000) (q : Fin 64) : Read.idx_main_v0 (ix2 r q) = ix2 r (0 : Fin 1) :=
  funext fun a => Fin.ext (by match a with | ⟨0, _⟩ => rfl | ⟨1, _⟩ => rfl)

theorem idx_v12 (r : Fin 100000) (q : Fin 64) : Read.idx_main_v12 (ix2 r q) = ix2 r (0 : Fin 1) :=
  funext fun a => Fin.ext (by match a with | ⟨0, _⟩ => rfl | ⟨1, _⟩ => rfl)

theorem idx_v19 (r : Fin 100000) (q : Fin 64) : Read.idx_main_v19 (ix2 r q) = ix2 r (0 : Fin 1) :=
  funext fun a => Fin.ext (by match a with | ⟨0, _⟩ => rfl | ⟨1, _⟩ => rfl)

theorem idx_v31 (r : Fin 100000) (q : Fin 64) : Read.idx_main_v31 (ix2 r q) = ix2 r (0 : Fin 1) :=
  funext fun a => Fin.ext (by match a with | ⟨0, _⟩ => rfl | ⟨1, _⟩ => rfl)

/-- The contraction's left factor at (r, q), term k, is entry (r, k). -/
theorem lidx_v14 (r : Fin 100000) (q k : Fin 64) : Read.lidx_main_v14 (ix2 r q) k = ix2 r k :=
  funext fun a => Fin.ext (by match a with | ⟨0, _⟩ => rfl | ⟨1, _⟩ => rfl)

/-- The contraction's right factor at (r, q), term k, is entry (k, q). -/
theorem ridx_v14 (r : Fin 100000) (q k : Fin 64) : Read.ridx_main_v14 (ix2 r q) k = ix2 k q :=
  funext fun a => Fin.ext (by match a with | ⟨0, _⟩ => rfl | ⟨1, _⟩ => rfl)

theorem lidx_v33 (r : Fin 100000) (q : Fin 40) (k : Fin 64) : Read.lidx_main_v33 (ix2 r q) k = ix2 r k :=
  funext fun a => Fin.ext (by match a with | ⟨0, _⟩ => rfl | ⟨1, _⟩ => rfl)

theorem ridx_v33 (r : Fin 100000) (q : Fin 40) (k : Fin 64) : Read.ridx_main_v33 (ix2 r q) k = ix2 k q :=
  funext fun a => Fin.ext (by match a with | ⟨0, _⟩ => rfl | ⟨1, _⟩ => rfl)

/-- The bias, broadcast first to a row and then down the rows: entry (r, q) reads b q. -/
theorem idx_v16 (r : Fin 100000) (q : Fin 64) : Read.idx_main_v16 (ix2 r q) = ix2 (0 : Fin 1) q :=
  funext fun a => Fin.ext (by match a with | ⟨0, _⟩ => rfl | ⟨1, _⟩ => rfl)

theorem idx_v15 (q : Fin 64) : Read.idx_main_v15 (ix2 (0 : Fin 1) q) = ix1 q :=
  funext fun a => Fin.ext (by match a with | ⟨0, _⟩ => rfl)

theorem idx_v35 (r : Fin 100000) (q : Fin 40) : Read.idx_main_v35 (ix2 r q) = ix2 (0 : Fin 1) q :=
  funext fun a => Fin.ext (by match a with | ⟨0, _⟩ => rfl | ⟨1, _⟩ => rfl)

theorem idx_v34 (q : Fin 40) : Read.idx_main_v34 (ix2 (0 : Fin 1) q) = ix1 q :=
  funext fun a => Fin.ext (by match a with | ⟨0, _⟩ => rfl)

/-! ### The stages, as whole arrays -/

section stages

variable (x0 : (⟨S100000x64, .f32⟩ : BufTy).Contents (Elt Ideal)) (x1 : (⟨S100000x1, .f32⟩ : BufTy).Contents (Elt Ideal))
  (x2 x3 : (⟨S1600000, .i32⟩ : BufTy).Contents (Elt Ideal)) (x4 : (⟨S64x64, .f32⟩ : BufTy).Contents (Elt Ideal))
  (x5 : (⟨S64, .f32⟩ : BufTy).Contents (Elt Ideal)) (x6 : (⟨S64x40, .f32⟩ : BufTy).Contents (Elt Ideal))
  (x7 : (⟨S40, .f32⟩ : BufTy).Contents (Elt Ideal))

/-- Layer 1, scaling: the input's rows times the node weights. -/
theorem stage_v1 : Read.val_main_v1 (F := Ideal) x0 x1 = scaleRows x0 x1 := by
  funext i
  obtain ⟨r, q, rfl⟩ : ∃ (r : Fin 100000) (q : Fin 64), i = ix2 r q := ⟨i 0, i 1, eq_ix2 i⟩
  rw [Read.val_main_v1_apply, Read.val_main_v0_apply, idx_v0, scaleRows_apply]
  rfl

/-- Layer 1, aggregation. -/
theorem stage_v11 : Read.val_main_v11 (F := Ideal) x0 x1 x2 x3 = agg x2 x3 (Read.val_main_v1 (F := Ideal) x0 x1) := rfl

/-- Layer 1, the affine map: (rows scaled) · W₁ + b₁. -/
theorem stage_v17 : Read.val_main_v17 (F := Ideal) x0 x1 x2 x3 x4 x5
    = affine64 (Read.val_main_v11 (F := Ideal) x0 x1 x2 x3) x1 x4 (asRow64 x5) := by
  funext i
  obtain ⟨r, q, rfl⟩ : ∃ (r : Fin 100000) (q : Fin 64), i = ix2 r q := ⟨i 0, i 1, eq_ix2 i⟩
  have hk : ∀ k : Fin 64, Read.val_main_v13 (F := Ideal) x0 x1 x2 x3 (Read.lidx_main_v14 (ix2 r q) k) * x4 (Read.ridx_main_v14 (ix2 r q) k)
      = (Read.val_main_v11 (F := Ideal) x0 x1 x2 x3 (ix2 r k) * x1 (ix2 r (0 : Fin 1))) * x4 (ix2 k q) := by
    intro k
    rw [lidx_v14, ridx_v14, Read.val_main_v13_apply, Read.val_main_v12_apply, idx_v12]
    rfl
  rw [Read.val_main_v17_apply, Read.val_main_v14_apply, Read.val_main_v16_apply, idx_v16, Read.val_main_v15_apply, idx_v15,
    affine64_apply, Finset.sum_congr rfl (fun k _ => hk k)]
  rfl

/-- Layer 1 ends with max(·, 0). -/
theorem stage_v18 : Read.val_main_v18 (F := Ideal) x0 x1 x2 x3 x4 x5
    = relu64 (Read.val_main_v17 (F := Ideal) x0 x1 x2 x3 x4 x5) := by
  funext i
  rw [Read.val_main_v18_apply, Read.val_main_call0_v0_apply, Read.val_main_call0_cst_apply, relu64_apply]
  rfl

/-- Layer 2, scaling. -/
theorem stage_v20 : Read.val_main_v20 (F := Ideal) x0 x1 x2 x3 x4 x5
    = scaleRows (Read.val_main_v18 (F := Ideal) x0 x1 x2 x3 x4 x5) x1 := by
  funext i
  obtain ⟨r, q, rfl⟩ : ∃ (r : Fin 100000) (q : Fin 64), i = ix2 r q := ⟨i 0, i 1, eq_ix2 i⟩
  rw [Read.val_main_v20_apply, Read.val_main_v19_apply, idx_v19, scaleRows_apply]
  rfl

/-- Layer 2, aggregation. -/
theorem stage_v30 : Read.val_main_v30 (F := Ideal) x0 x1 x2 x3 x4 x5
    = agg x2 x3 (Read.val_main_v20 (F := Ideal) x0 x1 x2 x3 x4 x5) := rfl

/-- Layer 2, the affine map: (rows scaled) · W₂ + b₂. -/
theorem stage_v36 : Read.val_main_v36 (F := Ideal) x0 x1 x2 x3 x4 x5 x6 x7
    = affine40 (Read.val_main_v30 (F := Ideal) x0 x1 x2 x3 x4 x5) x1 x6 (asRow40 x7) := by
  funext i
  obtain ⟨r, q, rfl⟩ : ∃ (r : Fin 100000) (q : Fin 40), i = ix2 r q := ⟨i 0, i 1, eq_ix2 i⟩
  have hk : ∀ k : Fin 64, Read.val_main_v32 (F := Ideal) x0 x1 x2 x3 x4 x5 (Read.lidx_main_v33 (ix2 r q) k) * x6 (Read.ridx_main_v33 (ix2 r q) k)
      = (Read.val_main_v30 (F := Ideal) x0 x1 x2 x3 x4 x5 (ix2 r k) * x1 (ix2 r (0 : Fin 1))) * x6 (ix2 k q) := by
    intro k
    rw [lidx_v33, ridx_v33, Read.val_main_v32_apply, Read.val_main_v31_apply, idx_v31]
    rfl
  rw [Read.val_main_v36_apply, Read.val_main_v33_apply, Read.val_main_v35_apply, idx_v35, Read.val_main_v34_apply, idx_v34,
    affine40_apply, Finset.sum_congr rfl (fun k _ => hk k)]
  rfl

end stages

/-- The reference's last stage is the two layers over `agg`. -/
theorem value_eq (x0 : (⟨S100000x64, .f32⟩ : BufTy).Contents (Elt Ideal)) (x1 : (⟨S100000x1, .f32⟩ : BufTy).Contents (Elt Ideal))
    (x2 x3 : (⟨S1600000, .i32⟩ : BufTy).Contents (Elt Ideal)) (x4 : (⟨S64x64, .f32⟩ : BufTy).Contents (Elt Ideal))
    (x5 : (⟨S64, .f32⟩ : BufTy).Contents (Elt Ideal)) (x6 : (⟨S64x40, .f32⟩ : BufTy).Contents (Elt Ideal))
    (x7 : (⟨S40, .f32⟩ : BufTy).Contents (Elt Ideal)) :
    Read.val_main_v36 (F := Ideal) x0 x1 x2 x3 x4 x5 x6 x7
      = twoLayers (agg x2 x3) x0 x1 x4 (asRow64 x5) x6 (asRow40 x7) := by
  rw [stage_v36, stage_v30, stage_v20, stage_v18, stage_v17, stage_v11, stage_v1]
  rfl

end Cert.ReferenceIdeal.RefVal

end
-- ==== Proof.lean ====
/-
  Two graph-convolution layers over 100000 nodes and 1600000 edges, computed by four tiled calls with the
  edge aggregation between them on the host, against the same two layers written with whole-array operations.

  Each scaling call leaves "row r of h times the weight of node r" (ten blocks of 10000 rows, each block the same
  function of its rows); each linear call leaves  Σ_k (h (r, k) · n (r, 0)) · W (k, q) + b (0, q)  (followed by
  max(·, 0) in the first layer): a block's matrix product into a zero accumulator is the plain sum over the 64
  contracted columns, and the narrowing of its operands is the identity on extended reals.  The reference's
  dot_general is the same sum.  The aggregation (row gather at the wrapped source indices, scatter-add into zeros at
  the destination indices) is the same operation in both programs and is never opened.  No law of the extended reals
  beyond this reading is needed, so the finiteness of the inputs is not used.
-/
import proofs.«134118_j19679540150348_1_alg».proof.Defs
import proofs.«134118_j19679540150348_1_alg».proof.Proof.Gen.Kernel
import proofs.«134118_j19679540150348_1_alg».proof.Proof.Gen.Kernel.Skeleton
import proofs.«134118_j19679540150348_1_alg».proof.Proof.Gen.Kernel.Launch
import proofs.«134118_j19679540150348_1_alg».proof.Proof.Gen.Kernel.Points
import proofs.«134118_j19679540150348_1_alg».proof.Proof.Gen.Kernel.Frame
import proofs.«134118_j19679540150348_1_alg».proof.Proof.Gen.KernelIdeal
import proofs.«134118_j19679540150348_1_alg».proof.Proof.Gen.KernelIdeal.Skeleton
import proofs.«134118_j19679540150348_1_alg».proof.Proof.Gen.KernelIdeal.Launch
import proofs.«134118_j19679540150348_1_alg».proof.Proof.Gen.KernelIdeal.Points
import proofs.«134118_j19679540150348_1_alg».proof.Proof.Gen.KernelIdeal.Frame
import proofs.«134118_j19679540150348_1_alg».proof.Proof.Gen.ReferenceIdeal
import proofs.«134118_j19679540150348_1_alg».proof.Proof.Gen.Pre_finite_inputs
import proofs.«134118_j19679540150348_1_alg».proof.Proof.Gen.ReferenceIdeal.Run
import proofs.«134118_j19679540150348_1_alg».proof.Proof.Gen.ReferenceIdeal.Read
import proofs.«134118_j19679540150348_1_alg».proof.Proof.RunValue
import proofs.«134118_j19679540150348_1_alg».proof.Proof.Chain
import proofs.«134118_j19679540150348_1_alg».proof.Proof.RefValue
import Idealize.ShloMosaic.Adequacy
import Idealize.ShloMosaic.Init

set_option maxRecDepth 16384

noncomputable section

namespace Cert.Proof

open Idealize.ShloMosaic Idealize.SL.Sem Cert.Gcn

/-- The aggregation is spelt with the same operations in the two programs. -/
theorem agg_eq (src dst : IVec Cert.KernelIdeal.S1600000 32) (h : FVec Ideal Cert.KernelIdeal.S100000x64 .f32) :
    Cert.ReferenceIdeal.RefVal.agg src dst h = Cert.KernelIdeal.Chain.agg src dst h := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the result array at the two layers of the shared arguments. -/
theorem algebraic : Cert.algebraic_KernelIdeal_ReferenceIdeal := by
  intro m ρ m' ρ' _ hagree
  refine ⟨fun c => twoLayers (Cert.KernelIdeal.Chain.agg (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (asRow64 (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (asRow40 (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.KernelIdeal.Chain.result_eq m ρ c), (h c).2⟩)
      (Cert.KernelIdeal.RunVal.run_value m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v36_eq, Cert.ReferenceIdeal.RefVal.value_eq, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
